-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1000 : Shape := ⟨2, ![1024, 1000]⟩
abbrev S1000x128 : Shape := ⟨2, ![1000, 128]⟩
abbrev S_ : Shape := ⟨0, ![]⟩

class Facts : Prop where
  bcast_S_S1024x1000 : S_.BroadcastsInDim S1024x1000 (![] : Fin 0 → Fin S1024x1000.rank)
  reducesTo_S1024x1000_S_d0_1 : S1024x1000.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_

variable [Facts]

def fn {F : FTy → Type} [FloatOps F] (main_arg0 : FVec F S1024x1000 .f32) (main_arg1 : FVec F S1000x128 .f32) : IVec S_ 1 :=
  let main_v0 : FVec F S1024x1000 .f32 := Host.absf main_arg0
  let main_cst : FVec F S_ .f32 := constant S_ .f32 0x7F800000#32
  let main_v1 : FVec F S1024x1000 .f32 := broadcastInDim S1024x1000 ![] bcast_S_S1024x1000 main_cst
  let main_v2 : IVec S1024x1000 1 := cmpf .olt main_v0 main_v1
  let main_c : IVec S_ 1 := constantI S_ 1 1#1
  let main_v3 : IVec S_ 1 := (fun x v => Host.reduce IntOp.andi x v reducesTo_S1024x1000_S_d0_1 h_S_) main_v2 main_c
  let main_v4 : FVec F S1000x128 .f32 := Host.absf main_arg1
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  main_v8
-- ==== Kernel.lean ====
abbrev S1024x1000 : Shape := ⟨2, ![1024, 1000]⟩
abbrev S1000x128 : Shape := ⟨2, ![1000, 128]⟩
abbrev S1024x128 : Shape := ⟨2, ![1024, 128]⟩
abbrev S512x1000 : Shape := ⟨2, ![512, 1000]⟩
abbrev S512x128 : Shape := ⟨2, ![512, 128]⟩

abbrev nBuf : Space → Nat
  | .hbm => 3
  | .vmem => 4
  | .smem => 0
  | _ => 0

abbrev bufTy : (tb : Table) → Fin (tcTables nBuf tb) → BufTy
  | .hbm, ⟨0, _⟩ => ⟨S1024x1000, .f32⟩
  | .hbm, ⟨1, _⟩ => ⟨S1000x128, .f32⟩
  | .hbm, ⟨2, _⟩ => ⟨S1024x128, .f32⟩
  | .local _ .vmem, ⟨0, _⟩ => ⟨S512x1000, .f32⟩
  | .local _ .vmem, ⟨1, _⟩ => ⟨S512x1000, .f32⟩
  | .local _ .vmem, ⟨2, _⟩ => ⟨S1000x128, .f32⟩
  | .local _ .vmem, ⟨3, _⟩ => ⟨S1024x128, .f32⟩
  | _, _ => ⟨S1024x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1000 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1000x128_S1000x128_0_0 : ∀ a, (![0, 0] : Fin 2 → Nat) a + S1000x128.size a ≤ S1000x128.size a
  h_S1000x128 : 0 < S1000x128.numel
  inb_S512x1000_S512x1000_0_0 : ∀ a, (![0, 0] : Fin 2 → Nat) a + S512x1000.size a ≤ S512x1000.size a
  h_S512x1000 : 0 < S512x1000.numel
  inb_S1024x128_S512x128_0_0 : ∀ a, (![0, 0] : Fin 2 → Nat) a + S512x128.size a ≤ S1024x128.size a
  h_S512x128 : 0 < S512x128.numel
  inb_S1024x128_S512x128_512_0 : ∀ a, (![512, 0] : Fin 2 → Nat) a + S512x128.size a ≤ S1024x128.size a
  dot_S512x1000_S1000x128_S512x128_1_0_0_1_n_n_wf : DotDims.WF S512x1000 S1000x128 S512x128 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S1024x1000.size a
  hwx0_0 : ∀ i : grid0.Coords, EltTy.bits .f32 = 32 ∨ (Rect.block (s := S1024x1000) S512x1000.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S512x1000.size a ≤ S1024x1000.size a
  hwx0_1 : ∀ i : grid0.Coords, EltTy.bits .f32 = 32 ∨ (Rect.block (s := S1024x1000) S512x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S1000x128.size a
  hwx0_2 : ∀ i : grid0.Coords, EltTy.bits .f32 = 32 ∨ (Rect.block (s := S1000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)

variable [Facts₀]

def dot_S512x1000_S1000x128_S512x128_1_0_0_1_n_n : DotDims S512x1000 S1000x128 S512x128 where
  lhsContracting := [1]
  rhsContracting := [0]
  lhsNonContracting := [0]
  rhsNonContracting := [1]
  lhsBatch := []
  rhsBatch := []
  wf := dot_S512x1000_S1000x128_S512x128_1_0_0_1_n_n_wf

abbrev win0_0 : Pipeline.Window sig grid0 :=
  Pipeline.Window.ofSpec (Memref.whole main_arg0) S512x1000.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1000.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1000 : Shape := ⟨2, ![1024, 1000]⟩
abbrev S1000x128 : Shape := ⟨2, ![1000, 128]⟩
abbrev S1000 : Shape := ⟨1, ![1000]⟩
abbrev S_ : Shape := ⟨0, ![]⟩
abbrev S1000x1 : Shape := ⟨2, ![1000, 1]⟩
abbrev S1 : Shape := ⟨1, ![1]⟩
abbrev S1x1 : Shape := ⟨2, ![1, 1]⟩
abbrev S1x1000x128 : Shape := ⟨3, ![1, 1000, 128]⟩
abbrev S1024x1000x1 : Shape := ⟨3, ![1024, 1000, 1]⟩
abbrev S1024x1000x128 : Shape := ⟨3, ![1024, 1000, 128]⟩
abbrev S1024x128 : Shape := ⟨2, ![1024, 128]⟩

abbrev nBuf : Space → Nat
  | .hbm => 33
  | .vmem => 0
  | .smem => 0
  | _ => 0

abbrev bufTy : (tb : Table) → Fin (tcTables nBuf tb) → BufTy
  | .hbm, ⟨0, _⟩ => ⟨S1024x1000, .f32⟩
  | .hbm, ⟨1, _⟩ => ⟨S1000x128, .f32⟩
  | .hbm, ⟨2, _⟩ => ⟨S1000, .i32⟩
  | .hbm, ⟨3, _⟩ => ⟨S_, .i32⟩
  | .hbm, ⟨4, _⟩ => ⟨S1000, .i32⟩
  | .hbm, ⟨5, _⟩ => ⟨S1000, .i1⟩
  | .hbm, ⟨6, _⟩ => ⟨S_, .i32⟩
  | .hbm, ⟨7, _⟩ => ⟨S1000, .i32⟩
  | .hbm, ⟨8, _⟩ => ⟨S1000, .i32⟩
  | .hbm, ⟨9, _⟩ => ⟨S1000, .i32⟩
  | .hbm, ⟨10, _⟩ => ⟨S1000x1, .i32⟩
  | .hbm, ⟨11, _⟩ => ⟨S1, .i32⟩
  | .hbm, ⟨12, _⟩ => ⟨S_, .i32⟩
  | .hbm, ⟨13, _⟩ => ⟨S1000x1, .i32⟩
  | .hbm, ⟨14, _⟩ => ⟨S1000x1, .i1⟩
  | .hbm, ⟨15, _⟩ => ⟨S1x1, .i32⟩
  | .hbm, ⟨16, _⟩ => ⟨S1000x1, .i32⟩
  | .hbm, ⟨17, _⟩ => ⟨S1000x1, .i1⟩
  | .hbm, ⟨18, _⟩ => ⟨S1000x1, .i1⟩
  | .hbm, ⟨19, _⟩ => ⟨S_, .i1⟩
  | .hbm, ⟨20, _⟩ => ⟨S1000, .i1⟩
  | .hbm, ⟨21, _⟩ => ⟨S1000x128, .f32⟩
  | .hbm, ⟨22, _⟩ => ⟨S1000x128, .i1⟩
  | .hbm, ⟨23, _⟩ => ⟨S_, .f32⟩
  | .hbm, ⟨24, _⟩ => ⟨S1000x128, .f32⟩
  | .hbm, ⟨25, _⟩ => ⟨S1000x128, .f32⟩
  | .hbm, ⟨26, _⟩ => ⟨S1x1000x128, .f32⟩
  | .hbm, ⟨27, _⟩ => ⟨S1024x1000x1, .f32⟩
  | .hbm, ⟨28, _⟩ => ⟨S1024x1000x128, .f32⟩
  | .hbm, ⟨29, _⟩ => ⟨S1024x1000x128, .f32⟩
  | .hbm, ⟨30, _⟩ => ⟨S1024x1000x128, .f32⟩
  | .hbm, ⟨31, _⟩ => ⟨S_, .f32⟩
  | .hbm, ⟨32, _⟩ => ⟨S1024x128, .f32⟩
  | _, _ => ⟨S1024x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩

abbrev nD : Nat := 1
abbrev τ : Topo := Topo.v7x

variable {F : FTy → Type} [FloatOps F]

class Facts₀ : Prop where
  bcast_S_S1000 : S_.BroadcastsInDim S1000 (![] : Fin 0 → Fin S1000.rank)
  bcast_S1000_S1000x1_0 : S1000.BroadcastsInDim S1000x1 (![0] : Fin 1 → Fin S1000x1.rank)
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  reducesTo_S1000x1_S1000_d1 : S1000x1.ReducesTo [1] S1000
  h_S_ : 0 < S_.numel
  bcast_S1000_S1000x128_0 : S1000.BroadcastsInDim S1000x128 (![0] : Fin 1 → Fin S1000x128.rank)
  bcast_S_S1000x128 : S_.BroadcastsInDim S1000x128 (![] : Fin 0 → Fin S1000x128.rank)
  bcast_S1000x128_S1x1000x128_1_2 : S1000x128.BroadcastsInDim S1x1000x128 (![1, 2] : Fin 2 → Fin S1x1000x128.rank)
  bcast_S1024x1000_S1024x1000x1_0_1 : S1024x1000.BroadcastsInDim S1024x1000x1 (![0, 1] : Fin 2 → Fin S1024x1000x1.rank)
  bcast_S1x1000x128_S1024x1000x128_0_1_2 : S1x1000x128.BroadcastsInDim S1024x1000x128 (![0, 1, 2] : Fin 3 → Fin S1024x1000x128.rank)
  bcast_S1024x1000x1_S1024x1000x128_0_1_2 : S1024x1000x1.BroadcastsInDim S1024x1000x128 (![0, 1, 2] : Fin 3 → Fin S1024x1000x128.rank)
  reducesTo_S1024x1000x128_S1024x128_d1 : S1024x1000x128.ReducesTo [1] S1024x128
  gather_S1000x128_S1000x1_S1000x128_1_0_n_n_0_1_1128_wf : GatherDims.WF S1000x128 S1000x1 S1000x128 [1] [0] [] [0] [] 1 ![1, 128]

variable [Facts₀]

def gather_S1000x128_S1000x1_S1000x128_1_0_n_n_0_1_1128 : GatherDims S1000x128 S1000x1 S1000x128 where
  offsetDims := [1]
  collapsedSliceDims := [0]
  operandBatchingDims := []
  startIndicesBatchingDims := []
  startIndexMap := [0]
  indexVectorDim := 1
  sliceSizes := ![1, 128]
  wf := gather_S1000x128_S1000x1_S1000x128_1_0_n_n_0_1_1128_wf

class Facts : Prop extends Facts₀ where

variable [Facts]
-- ==== Proof.KFrame.lean ====
/-
  The kernel's run, at any float instance: one grid point; the weights' two half-row blocks (rows 0..511 and
  512..1023 of ONE array, read through two windows, each holding half of the array's share) and the whole table
  are staged, the body stores the product of the lower half with the table into rows 0..511 of the output block
  and the product of the upper half into rows 512..1023, and the block is written back. Every weakly fair
  execution terminates with the output array at that block written over its entry contents and both argument
  arrays unchanged.
-/
import proofs.«176718_g3934190044074_cont_8to1_b_861_10_alg».proof.Proof.Gen.KernelIdeal.Launch
import proofs.«176718_g3934190044074_cont_8to1_b_861_10_alg».proof.Proof.Gen.KernelIdeal.Skeleton
import proofs.«176718_g3934190044074_cont_8to1_b_861_10_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds algebra, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rT : Rect S1000x128 := Rect.unit (s := S1000x128) ![0, 0] S1000x128.size inb_S1000x128_S1000x128_0_0
abbrev rW : Rect S512x1000 := Rect.unit (s := S512x1000) ![0, 0] S512x1000.size inb_S512x1000_S512x1000_0_0
abbrev rLo : Rect S1024x128 := Rect.unit (s := S1024x128) ![0, 0] S512x128.size inb_S1024x128_S512x128_0_0
abbrev rHi : Rect S1024x128 := Rect.unit (s := S1024x128) ![512, 0] S512x128.size inb_S1024x128_S512x128_512_0

/-! ## What the body leaves in the output window's buffer -/

/-- The output buffer after the body, from the three input blocks: its two stores as pieces, last first — rows
    512..1023 the product of the upper half-block with the table, rows 0..511 that of the lower half-block. -/
def out0_3 (x0 : Vec F S512x1000 .f32) (x1 : Vec F S512x1000 .f32) (x2 : Vec F S1000x128 .f32) : Vec F S1024x128 .f32 :=
  View.canon [⟨rHi, k0_pay2 (View.ld x2 rT) (View.ld x1 rW)⟩, ⟨rLo, k0_pay1 (View.ld x2 rT) (View.ld x0 rW)⟩]

/-- The two stores tile the buffer, so they cover it. -/
theorem cover0_3 (p0 p1 : Vec F S512x128 .f32) (y : S1024x128.Idx) :
    ∃ pc ∈ ([⟨rHi, p0⟩, ⟨rLo, p1⟩] : List (View.Piece (Elt F) S1024x128 .f32)), y ∈ pc.1.set :=
  View.cover_of_tiled [⟨rHi, p0⟩, ⟨rLo, p1⟩] S512x128.size (by rfl) y

/-! ## The body's triple -/

set_option maxHeartbeats 1000000 in
/-- The kernel body on whole staging memrefs, the inputs' at read contents and the output's at anything, runs to the
    continuation holding the inputs' as they were and the output's at `out0_3` of the inputs'. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S1000x128 .f32) (harg3 : arg3.IsWhole) (arg4 : Memref sig .tc .vmem S1024x128 .f32) (harg4 : arg4.IsWhole)
    (x0 : Vec F S512x1000 .f32) (x1 : Vec F S512x1000 .f32) (x2 : Vec F S1000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The pipeline's proof data -/

/-- The proof data of the one pipeline on core `c`: the arrays as the region finds them; after the body each
    input's buffer at its block and the output's at `out0_3` of the input blocks; no invariant; nothing owed; the
    weights' array lent half to each of its two windows, the table's whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's staging buffer holds its block when the body runs: it is fetched at the one point, whole. -/
theorem before0_0 (c : Dev nD) (t : Fin cfg0.N) (d) : (dats m 0 c).before 0 t d = iblk m c 0 t := by
  unfold Dat.before; rw [if_pos (fetch0_0 t)]; rfl
theorem before0_1 (c : Dev nD) (t : Fin cfg0.N) (d) : (dats m 0 c).before 1 t d = iblk m c 1 t := by
  unfold Dat.before; rw [if_pos (fetch0_1 t)]; rfl
theorem before0_2 (c : Dev nD) (t : Fin cfg0.N) (d) : (dats m 0 c).before 2 t d = iblk m c 2 t := by
  unfold Dat.before; rw [if_pos (fetch0_2 t)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR sig nD τ := initOf (Pipeline.cells cfgs cellOf_inj) (Pipeline.launchToks cfgs cellOf_inj)

/-- The three buffers behind the four windows' arrays, each whole at the full share as the region finds them, are
    the pipeline's arrays at entry: the weights' buffer's share is halved between its two windows (each reads it
    only), the table's and the output's go whole to their one window. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

theorem arrays_as (c : Dev nD) (G : (w : Fin cfg0.W) → Buf (Elt F) ((cfg0.win w).arr.view.loc (c.tc : Thread nD τ))) :
    (dats m 0 c).arrays G
      = iprop((((c.tc : Thread nD τ).loc (Pipeline.arrRef spec0 0)) ↦{fullShare.left} G 0 : sProp 𝕄)
          ∗ (((c.tc : Thread nD τ).loc (Pipeline.arrRef spec0 1)) ↦{fullShare.right} G 1)
          ∗ (((c.tc : Thread nD τ).loc (Pipeline.arrRef spec0 2)) ↦{fullShare} G 2)
          ∗ (((c.tc : Thread nD τ).loc (Pipeline.arrRef spec0 3)) ↦{fullShare} G 3)) := by
  unfold Dat.arrays
  rw [bigSep_W0, (arr_whole0 0).set_eq_univ, (arr_whole0 2).set_eq_univ, (arr_whole0 3).set_eq_univ]
  rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [bigSep_arrs, arrays_as]
  refine (sep_mono (pointsTo_share (PosShare.mem_left_op_right fullShare)).1 .rfl).trans ?_
  exact sep_assoc.1

/-- The physical post: every array of the kernel holds what the write-backs leave in it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of
    @main terminates, and every final state has every array of the pipeline at what the write-backs leave. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The run, read at the program's three arrays: the output at what the one write-back leaves, the two arguments
    (inputs only) as launched. -/
theorem run : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3, (h c 0).trans ((dats m 0 c).arrAt_in 0 rfl _),
    (h c 2).trans ((dats m 0 c).arrAt_in 2 rfl _)⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run m ρ)

end Cert.KernelIdeal.Hand

end
-- ==== Proof.KFrameBits.lean ====
/-
  The kernel's run, at any float instance: one grid point; the weights' two half-row blocks (rows 0..511 and
  512..1023 of ONE array, read through two windows, each holding half of the array's share) and the whole table
  are staged, the body stores the product of the lower half with the table into rows 0..511 of the output block
  and the product of the upper half into rows 512..1023, and the block is written back. Every weakly fair
  execution terminates with the output array at that block written over its entry contents and both argument
  arrays unchanged.
-/
import proofs.«176718_g3934190044074_cont_8to1_b_861_10_alg».proof.Proof.Gen.Kernel.Launch
import proofs.«176718_g3934190044074_cont_8to1_b_861_10_alg».proof.Proof.Gen.Kernel.Skeleton
import proofs.«176718_g3934190044074_cont_8to1_b_861_10_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds algebra, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main up to the region -/

/-- Core `c`'s buffers when the region is entered: as launched (@main is the region alone). -/
abbrev V (c : Dev nD) (b : Ref sig .tc) : Buf (Elt F) ((c : Thread nD τ).loc b) := m ((c : Thread nD τ).loc b)

theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev rT : Rect S1000x128 := Rect.unit (s := S1000x128) ![0, 0] S1000x128.size inb_S1000x128_S1000x128_0_0
abbrev rW : Rect S512x1000 := Rect.unit (s := S512x1000) ![0, 0] S512x1000.size inb_S512x1000_S512x1000_0_0
abbrev rLo : Rect S1024x128 := Rect.unit (s := S1024x128) ![0, 0] S512x128.size inb_S1024x128_S512x128_0_0
abbrev rHi : Rect S1024x128 := Rect.unit (s := S1024x128) ![512, 0] S512x128.size inb_S1024x128_S512x128_512_0

/-! ## What the body leaves in the output window's buffer -/

/-- The output buffer after the body, from the three input blocks: its two stores as pieces, last first — rows
    512..1023 the product of the upper half-block with the table, rows 0..511 that of the lower half-block. -/
def out0_3 (x0 : Vec F S512x1000 .f32) (x1 : Vec F S512x1000 .f32) (x2 : Vec F S1000x128 .f32) : Vec F S1024x128 .f32 :=
  View.canon [⟨rHi, k0_pay2 (View.ld x2 rT) (View.ld x1 rW)⟩, ⟨rLo, k0_pay1 (View.ld x2 rT) (View.ld x0 rW)⟩]

/-- The two stores tile the buffer, so they cover it. -/
theorem cover0_3 (p0 p1 : Vec F S512x128 .f32) (y : S1024x128.Idx) :
    ∃ pc ∈ ([⟨rHi, p0⟩, ⟨rLo, p1⟩] : List (View.Piece (Elt F) S1024x128 .f32)), y ∈ pc.1.set :=
  View.cover_of_tiled [⟨rHi, p0⟩, ⟨rLo, p1⟩] S512x128.size (by rfl) y

/-! ## The body's triple -/

set_option maxHeartbeats 1000000 in
/-- The kernel body on whole staging memrefs, the inputs' at read contents and the output's at anything, runs to the
    continuation holding the inputs' as they were and the output's at `out0_3` of the inputs'. -/
theorem sound_kernel (c : Dev nD) (E : Set ℕ) (i : grid0.Coords)
    (arg1 : Memref sig .tc .vmem S512x1000 .f32) (harg1 : arg1.IsWhole) (arg2 : Memref sig .tc .vmem S512x1000 .f32) (harg2 : arg2.IsWhole)
    (arg3 : Memref sig .tc .vmem S1000x128 .f32) (harg3 : arg3.IsWhole) (arg4 : Memref sig .tc .vmem S1024x128 .f32) (harg4 : arg4.IsWhole)
    (x0 : Vec F S512x1000 .f32) (x1 : Vec F S512x1000 .f32) (x2 : Vec F S1000x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__matmul_kernel i arg1 harg1 arg2 harg2 arg3 harg3 arg4 harg4) K := by
  simp only [cc0__matmul_kernel_eq_skeleton]; unfold cc0__matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _ _)

/-! ## The pipeline's proof data -/

/-- The proof data of the one pipeline on core `c`: the arrays as the region finds them; after the body each
    input's buffer at its block and the output's at `out0_3` of the input blocks; no invariant; nothing owed; the
    weights' array lent half to each of its two windows, the table's whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := iprop(emp)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

/-- Each input's staging buffer holds its block when the body runs: it is fetched at the one point, whole. -/
theorem before0_0 (c : Dev nD) (t : Fin cfg0.N) (d) : (dats m 0 c).before 0 t d = iblk m c 0 t := by
  unfold Dat.before; rw [if_pos (fetch0_0 t)]; rfl
theorem before0_1 (c : Dev nD) (t : Fin cfg0.N) (d) : (dats m 0 c).before 1 t d = iblk m c 1 t := by
  unfold Dat.before; rw [if_pos (fetch0_1 t)]; rfl
theorem before0_2 (c : Dev nD) (t : Fin cfg0.N) (d) : (dats m 0 c).before 2 t d = iblk m c 2 t := by
  unfold Dat.before; rw [if_pos (fetch0_2 t)]; rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The launch -/

/-- The launch element: every staging cell's owner at round 0 and a duty token for every transfer the pipeline issues. -/
def u₀ : UR sig nD τ := initOf (Pipeline.cells cfgs cellOf_inj) (Pipeline.launchToks cfgs cellOf_inj)

/-- The three buffers behind the four windows' arrays, each whole at the full share as the region finds them, are
    the pipeline's arrays at entry: the weights' buffer's share is halved between its two windows (each reads it
    only), the table's and the output's go whole to their one window. -/
theorem bigSep_arrs {M : Type} [URA M] (Φ : Ref sig .tc → sProp M) :
    bigSep (Finset.univ.image (Pipeline.arrRef spec0)) Φ = iprop(Φ main_arg0 ∗ Φ main_arg1 ∗ Φ main_v0) :=
  bigSep_eq_bigSepL_of_eq [main_arg0, main_arg1, main_v0] (by decide) (by decide) Φ

theorem arrays_as (c : Dev nD) (G : (w : Fin cfg0.W) → Buf (Elt F) ((cfg0.win w).arr.view.loc (c.tc : Thread nD τ))) :
    (dats m 0 c).arrays G
      = iprop((((c.tc : Thread nD τ).loc (Pipeline.arrRef spec0 0)) ↦{fullShare.left} G 0 : sProp 𝕄)
          ∗ (((c.tc : Thread nD τ).loc (Pipeline.arrRef spec0 1)) ↦{fullShare.right} G 1)
          ∗ (((c.tc : Thread nD τ).loc (Pipeline.arrRef spec0 2)) ↦{fullShare} G 2)
          ∗ (((c.tc : Thread nD τ).loc (Pipeline.arrRef spec0 3)) ↦{fullShare} G 3)) := by
  unfold Dat.arrays
  rw [bigSep_W0, (arr_whole0 0).set_eq_univ, (arr_whole0 2).set_eq_univ, (arr_whole0 3).set_eq_univ]
  rfl

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs
  rw [bigSep_arrs, arrays_as]
  refine (sep_mono (pointsTo_share (PosShare.mem_left_op_right fullShare)).1 .rfl).trans ?_
  exact sep_assoc.1

/-- The physical post: every array of the kernel holds what the write-backs leave in it. -/
def QC : PUnit × MemSt nD τ sig (Elt F) → Prop := fun r =>
  ∀ (c : Dev nD) (w : Fin cfg0.W), r.2.mem ((cfg0.win w).arr.view.loc (c : Thread nD τ)) = (dats m 0 c).arrAt w cfg0.N

set_option backward.isDefEq.respectTransparency.types false in
/-- At the compiled mesh, for any float values, from any memory with zero counters: every weakly fair execution of
    @main terminates, and every final state has every array of the pipeline at what the write-backs leave. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m) (hmain := hmain m Variants.none)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The run, read at the program's three arrays: the output at what the one write-back leaves, the two arguments
    (inputs only) as launched. -/
theorem run : θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h c 3, (h c 0).trans ((dats m 0 c).arrAt_in 0 rfl _),
    (h c 2).trans ((dats m 0 c).arrAt_in 2 rfl _)⟩) (run_main m ρ)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1, (h c).2.2⟩) (run m ρ)

end Cert.Kernel.Hand

end
-- ==== Proof.Spec.lean ====
/-
  The function both programs compute, stated over the extended reals with no program in sight: the pooled
  weighted embedding  out(b, d) = Σ_v weights(b, v) · table(v, d)  of a [1024, 1000] weight matrix and a
  [1000, 128] table — a plain matrix product, the sum over the 1000 categories in the table's own order.
-/
import Idealize.ShloMosaic.PureOps.Ideal
import Idealize.ShloMosaic.Lib.ValueIdx

noncomputable section

namespace Cert.Spec

open Idealize.ShloMosaic Idealize.ShloMosaic.ValueIdx

/-- The weight matrix's index type, the table's, and the result's. -/
abbrev SW : Shape := ⟨2, ![1024, 1000]⟩
abbrev ST : Shape := ⟨2, ![1000, 128]⟩
abbrev SO : Shape := ⟨2, ![1024, 128]⟩

/-- Entry (b, d) of the pooled embedding: the sum over the categories v of weights(b, v) · table(v, d). -/
def pooledAt (w : SW.Idx → EReal) (t : ST.Idx → EReal) (b : Fin 1024) (d : Fin 128) : EReal :=
  ∑ v : Fin 1000, w (ix2 b v) * t (ix2 v d)

/-- The pooled embedding as an array. -/
def pooled (w : SW.Idx → EReal) (t : ST.Idx → EReal) : SO.Idx → EReal :=
  fun i => pooledAt w t (i 0) (i 1)

theorem pooled_ix2 (w : SW.Idx → EReal) (t : ST.Idx → EReal) (b : Fin 1024) (d : Fin 128) :
    pooled w t (ix2 b d) = ∑ v : Fin 1000, w (ix2 b v) * t (ix2 v d) := rfl

end Cert.Spec

end
-- ==== Proof.LibPlainProduct.lean ====
/-
  A matrix product with one contracted axis, read at an entry over the extended reals: the kernel's product into a
  zero accumulator and the host's product are both the plain sum, over the contracted coordinate, of the left
  operand's row entry times the right operand's column entry — whatever formats the operands carry.
-/
import Idealize.ShloMosaic.Lib.ValueIdx
import Idealize.ShloMosaic.PureOps.Ideal.Laws

namespace Cert.PlainProduct

open Idealize.ShloMosaic Idealize.ShloMosaic.ValueIdx

variable {M K N : ℕ}

/-- The left operand is read at the output's row … -/
theorem lhs_row (j : (⟨2, ![M, N]⟩ : Shape).Idx) (q : (DotDims.plain M K N).contr.Idx) :
    ((DotDims.plain M K N).lhsIdx j q 0).val = (j 0).val := rfl
/-- … and the contracted coordinate; -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- the right operand at the contracted coordinate … -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the output's column. -/
theorem rhs_col (j : (⟨2, ![M, N]⟩ : Shape).Idx) (q : (DotDims.plain M K N).contr.Idx) :
    ((DotDims.plain M K N).rhsIdx j q 1).val = (j 1).val := rfl

/-- The sum over the contraction's index set is the sum over the K values of its one coordinate. -/
theorem sum_contr {φ₁ φ₂ : FTy} (lhs : FVec Ideal ⟨2, ![M, K]⟩ φ₁) (rhs : FVec Ideal ⟨2, ![K, N]⟩ φ₂) (p : Fin M) (q : Fin N) :
    (∑ k : (DotDims.plain M K N).contr.Idx,
        lhs ((DotDims.plain M K N).lhsIdx (ix2 p q) k) * rhs ((DotDims.plain M K N).rhsIdx (ix2 p q) k))
      = ∑ x : Fin K, lhs (ix2 p x) * rhs (ix2 x q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

/-- The kernel's product into the zero accumulator, at (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (F := Ideal) (DotDims.plain M K N) prec lhs rhs (constant (F := Ideal) ⟨2, ![M, N]⟩ .f32 0x00000000#32) (ix2 p q)
      = ∑ x : Fin K, lhs (ix2 p x) * rhs (ix2 x q) :=
  (Ideal.matmul_constant_zero_apply (DotDims.plain M K N) prec lhs rhs (ix2 p q)).trans (sum_contr lhs rhs p q)

/-- The host's product, at (p, q). -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (F := Ideal) (DotDims.plain M K N) prec lhs rhs (ix2 p q)
      = ∑ x : Fin K, lhs (ix2 p x) * rhs (ix2 x q) := by
  simp only [Host.dotGeneral]
  exact (Ideal.dotGeneral_apply (DotDims.plain M K N) prec _ lhs rhs (ix2 p q)).trans (sum_contr lhs rhs p q)

/-- The product of an [M, K] array by a [K, N] array as one array: entry (p, q) is the sum over x of lhs (p, x) · rhs (x, q). -/
noncomputable def prod {φ₁ φ₂ : FTy} (lhs : FVec Ideal ⟨2, ![M, K]⟩ φ₁) (rhs : FVec Ideal ⟨2, ![K, N]⟩ φ₂) :
    FVec Ideal ⟨2, ![M, N]⟩ .f32 :=
  fun i => ∑ x : Fin K, lhs (ix2 (i 0) x) * rhs (ix2 x (i 1))

theorem prod_apply {φ₁ φ₂ : FTy} (lhs : FVec Ideal ⟨2, ![M, K]⟩ φ₁) (rhs : FVec Ideal ⟨2, ![K, N]⟩ φ₂) (p : Fin M) (q : Fin N) :
    prod lhs rhs (ix2 p q) = ∑ x : Fin K, lhs (ix2 p x) * rhs (ix2 x q) := rfl

/-- The host's product is that array. -/
theorem dotGeneral_eq_prod {φ₁ φ₂ : FTy} (prec : Option ContractPrecision)
    (lhs : FVec Ideal ⟨2, ![M, K]⟩ φ₁) (rhs : FVec Ideal ⟨2, ![K, N]⟩ φ₂) :
    Host.dotGeneral (F := Ideal) (DotDims.plain M K N) prec lhs rhs = prod lhs rhs := by
  funext i
  obtain ⟨p, q, rfl⟩ : ∃ (p : Fin M) (q : Fin N), i = ix2 p q := ⟨i 0, i 1, eq_ix2 i⟩
  exact dotGeneral_apply prec lhs rhs p q

end Cert.PlainProduct
-- ==== Proof.KValue.lean ====
/-
  The kernel's output array after the run, at the extended reals: the one write-back leaves the output block over
  the whole array; its rows 0..511 are the product of the weights' rows 0..511 with the table, its rows 512..1023
  that of the weights' rows 512..1023 — each entry the sum over the 1000 categories of weight times table entry
  (a matrix product into the zero accumulator is that plain sum) — so the array is the pooled embedding.
-/
import proofs.«176718_g3934190044074_cont_8to1_b_861_10_alg».proof.Proof.KFrame
import proofs.«176718_g3934190044074_cont_8to1_b_861_10_alg».proof.Proof.Spec
import proofs.«176718_g3934190044074_cont_8to1_b_861_10_alg».proof.Proof.LibPlainProduct
import Idealize.ShloMosaic.Lib.Pipeline.Value
import Idealize.ShloMosaic.Lib.ValueIdx
import Idealize.ShloMosaic.PureOps.Ideal.Laws

noncomputable section

namespace Cert.KernelIdeal.KValue

open Idealize.ShloMosaic Idealize.ShloMosaic.TcCoe Idealize.ShloMosaic.ValueIdx Idealize.SL.Sem
open Cert.KernelIdeal Cert.KernelIdeal.Gen Cert.KernelIdeal.Hand

/-! ## The product at an entry -/

/-- The zero offsets, however spelt. -/
theorem hz : (![0, 0] : Fin 2 → Nat) = fun _ => 0 := funext fun a => by fin_cases a <;> rfl

/-- The kernel's contraction is the plain one: rows by columns over the 1000 categories. -/
theorem dot_eq : dot_S512x1000_S1000x128_S512x128_1_0_0_1_n_n = DotDims.plain 512 1000 128 := rfl

/-- The lower half's payload at (p, q): the sum over the categories of the half-block's row entry times the table's. -/
theorem pay1_apply (T : Vec Ideal S1000x128 .f32) (X : Vec Ideal S512x1000 .f32) (p : Fin 512) (q : Fin 128) :
    k0_pay1 (F := Ideal) T X (ix2 p q) = ∑ k : Fin 1000, X (ix2 p k) * T (ix2 k q) := by
  show matmul (F := Ideal) dot_S512x1000_S1000x128_S512x128_1_0_0_1_n_n none X T (constant (F := Ideal) S512x128 .f32 0x00000000#32) (ix2 p q) = _
  rw [dot_eq]
  exact Cert.PlainProduct.matmul_zero_apply none X T p q

/-- The upper half's payload likewise. -/
theorem pay2_apply (T : Vec Ideal S1000x128 .f32) (X : Vec Ideal S512x1000 .f32) (p : Fin 512) (q : Fin 128) :
    k0_pay2 (F := Ideal) T X (ix2 p q) = ∑ k : Fin 1000, X (ix2 p k) * T (ix2 k q) := by
  show matmul (F := Ideal) dot_S512x1000_S1000x128_S512x128_1_0_0_1_n_n none X T (constant (F := Ideal) S512x128 .f32 0x00000000#32) (ix2 p q) = _
  rw [dot_eq]
  exact Cert.PlainProduct.matmul_zero_apply none X T p q

/-! ## Where the two stores land -/

/-- Local entry (p, q) of the lower store is the block's entry (p, q) … -/
theorem emb_lo (p : Fin 512) (q : Fin 128) :
    rLo.emb (ix2 p q) = ix2 (⟨p.val, by have := p.isLt; omega⟩ : Fin 1024) q := by
  funext a; apply Fin.ext
  match a with
  | ⟨0, _⟩ => show 0 + 1 * p.val = p.val; omega
  | ⟨1, _⟩ => show 0 + 1 * q.val = q.val; omega

/-- … and of the upper store, the block's entry (512 + p, q). -/
theorem emb_hi (p : Fin 512) (q : Fin 128) :
    rHi.emb (ix2 p q) = ix2 (⟨512 + p.val, by have := p.isLt; omega⟩ : Fin 1024) q := by
  funext a; apply Fin.ext
  match a with
  | ⟨0, _⟩ => show 512 + 1 * p.val = 512 + p.val; omega
  | ⟨1, _⟩ => show 0 + 1 * q.val = q.val; omega

/-! ## The output block is the pooled embedding of what the three input blocks hold -/

/-- The output block after the body, when the two half-blocks are rows 0..511 and 512..1023 of one weight array A
    and the third block is the table T: the pooled embedding of A and T. Each store's payload is the pooled sum at
    the entries its rectangle names, and the two stores cover the block. -/
theorem out_eq (x0 x1 : Vec Ideal S512x1000 .f32) (x2 : Vec Ideal S1000x128 .f32)
    (A : Cert.Spec.SW.Idx → EReal) (T : Cert.Spec.ST.Idx → EReal)
    (h0 : ∀ (p : Fin 512) (k : Fin 1000), x0 (ix2 p k) = A (ix2 (⟨p.val, by have := p.isLt; omega⟩ : Fin 1024) k))
    (h1 : ∀ (p : Fin 512) (k : Fin 1000), x1 (ix2 p k) = A (ix2 (⟨512 + p.val, by have := p.isLt; omega⟩ : Fin 1024) k))
    (h2 : ∀ (k : Fin 1000) (q : Fin 128), x2 (ix2 k q) = T (ix2 k q)) :
    out0_3 (F := Ideal) x0 x1 x2 = Cert.Spec.pooled A T := by
  funext y
  unfold out0_3
  refine View.canon_apply_of_pieces (Val := Elt Ideal) (S := S1024x128) (e := .f32)
    (Cert.Spec.pooled A T : S1024x128.Idx → Elt Ideal .f32) _ ?_ y (cover0_3 _ _ y)
  intro pc hpc
  rcases List.mem_cons.mp hpc with rfl | hpc
  · intro x
    obtain ⟨p, q, rfl⟩ : ∃ (p : Fin 512) (q : Fin 128), x = ix2 p q := ⟨x 0, x 1, eq_ix2 x⟩
    show k0_pay2 (F := Ideal) (View.ld x2 rT) (View.ld x1 rW) (ix2 p q) = Cert.Spec.pooled A T (rHi.emb (ix2 p q))
    rw [emb_hi, Cert.Spec.pooled_ix2, pay2_apply, View.ld_unit_zero (S := S1000x128) hz, View.ld_unit_zero (S := S512x1000) hz]
    exact Finset.sum_congr rfl fun k _ => by rw [h1, h2]
  · rcases List.mem_singleton.mp hpc with rfl
    intro x
    obtain ⟨p, q, rfl⟩ : ∃ (p : Fin 512) (q : Fin 128), x = ix2 p q := ⟨x 0, x 1, eq_ix2 x⟩
    show k0_pay1 (F := Ideal) (View.ld x2 rT) (View.ld x0 rW) (ix2 p q) = Cert.Spec.pooled A T (rLo.emb (ix2 p q))
    rw [emb_lo, Cert.Spec.pooled_ix2, pay1_apply, View.ld_unit_zero (S := S1000x128) hz, View.ld_unit_zero (S := S512x1000) hz]
    exact Finset.sum_congr rfl fun k _ => by rw [h0, h2]

/-! ## The blocks the one point reads and writes -/

/-- The printed index maps, decided over the grid: the weights' first window reads block 0 and its second block 1
    of the rows, the table's and the output's windows their one block. -/
theorem idx_facts : ∀ t : Fin cfg0.N,
    win0_0.index t (0 : Fin 2) = 0 ∧ win0_0.index t (1 : Fin 2) = 0
    ∧ win0_1.index t (0 : Fin 2) = 1 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

variable (m : (ℓ : Loc nD τ sig) → Buf (Elt Ideal) ℓ)

/-- The first window's block is rows 0..511 of the weights. -/
theorem iblk0_apply (c : Dev nD) (t : Fin cfg0.N) (p : Fin 512) (k : Fin 1000) :
    iblk m c 0 t (ix2 p k) = V m c main_arg0 (ix2 (⟨p.val, by have := p.isLt; omega⟩ : Fin 1024) k) := by
  obtain ⟨e0, e1, -⟩ := idx_facts t
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = p.val; omega
  | ⟨1, _⟩ => show win0_0.index t (1 : Fin 2) * 1000 + 1 * k.val = k.val; omega

/-- The second window's block is rows 512..1023 of the same array. -/
theorem iblk1_apply (c : Dev nD) (t : Fin cfg0.N) (p : Fin 512) (k : Fin 1000) :
    iblk m c 1 t (ix2 p k) = V m c main_arg0 (ix2 (⟨512 + p.val, by have := p.isLt; omega⟩ : Fin 1024) k) := by
  obtain ⟨-, -, e0, e1, -⟩ := idx_facts t
  show V m c main_arg0 (((cfg0.win 1).blk t).view.emb (ix2 p k)) = _
  refine congrArg (V m c main_arg0) (funext fun a => Fin.ext ?_)
  match a with
  | ⟨0, _⟩ => show win0_1.index t (0 : Fin 2) * 512 + 1 * p.val = 512 + p.val; omega
  | ⟨1, _⟩ => show win0_1.index t (1 : Fin 2) * 1000 + 1 * k.val = k.val; omega

/-- The third window's block is the whole table. -/
theorem iblk2_apply (c : Dev nD) (t : Fin cfg0.N) (k : Fin 1000) (q : Fin 128) :
    iblk m c 2 t (ix2 k q) = V m c main_arg1 (ix2 k q) := by
  obtain ⟨-, -, -, -, e0, e1, -⟩ := idx_facts t
  show V m c main_arg1 (((cfg0.win 2).blk t).view.emb (ix2 k q)) = _
  refine congrArg (V m c main_arg1) (funext fun a => Fin.ext ?_)
  match a with
  | ⟨0, _⟩ => show win0_2.index t (0 : Fin 2) * 1000 + 1 * k.val = k.val; omega
  | ⟨1, _⟩ => show win0_2.index t (1 : Fin 2) * 128 + 1 * q.val = q.val; omega

/-- What the point writes back is the output window's block of the pooled embedding of the two argument arrays. -/
theorem flushed_eq (c : Dev nD) (t : Fin cfg0.N) :
    (dats (F := Ideal) m 0 c).flushed 3 t
      = ((cfg0.win 3).blk t).view.read (Elt Ideal) (Cert.Spec.pooled (V m c main_arg0) (V m c main_arg1)) := by
  show (cfg0.win 3).cut (grid0.coords t) ((dats (F := Ideal) m 0 c).after 3 t) = _
  rw [after0_3,
    out_eq (iblk m c 0 t) (iblk m c 1 t) (iblk m c 2 t) (V m c main_arg0) (V m c main_arg1)
      (iblk0_apply m c t) (iblk1_apply m c t) (iblk2_apply m c t)]
  obtain ⟨-, -, -, -, -, -, e0, e1⟩ := idx_facts t
  funext y
  show Cert.Spec.pooled (V m c main_arg0) (V m c main_arg1) y
    = Cert.Spec.pooled (V m c main_arg0) (V m c main_arg1) (((cfg0.win 3).blk t).view.emb y)
  refine congrArg (Cert.Spec.pooled (V m c main_arg0) (V m c main_arg1)) (funext fun a => Fin.ext ?_)
  match a with
  | ⟨0, _⟩ => show (y 0).val = win0_3.index t (0 : Fin 2) * 1024 + 1 * (y 0).val; omega
  | ⟨1, _⟩ => show (y 1).val = win0_3.index t (1 : Fin 2) * 128 + 1 * (y 1).val; omega

/-! ## The one block covers the array -/

/-- An index of the output array is in the point's block iff each coordinate is in the block's range on its axis. -/
theorem mem_blk (t : Fin cfg0.N) (i : S1024x128.Idx) :
    i ∈ ((cfg0.win 3).blk t).view.set
      ↔ ∀ a : Fin 2, win0_3.index t a * S1024x128.size a ≤ (i a).val
          ∧ (i a).val < win0_3.index t a * S1024x128.size a + S1024x128.size a := by
  show i ∈ ((View.whole main_v0).slice (win0_3.rect t)).set ↔ _
  rw [View.set_slice_whole, Rect.mem_set_unit]
  exact Iff.rfl

/-- Every index of the output array is in the one point's block, which is written back. -/
theorem covered (i : S1024x128.Idx) :
    ∃ t : Fin cfg0.N, (cfg0.win 3).flush t = true ∧ i ∈ ((cfg0.win 3).blk t).view.set := by
  refine ⟨t0_0, flush0_3 t0_0, ?_⟩
  rw [mem_blk]
  obtain ⟨-, -, -, -, -, -, e0, e1⟩ := idx_facts t0_0
  have h0 : (i 0).val < 1024 := (i 0).isLt
  have h1 : (i 1).val < 128 := (i 1).isLt
  intro a
  match a with
  | ⟨0, _⟩ =>
    show win0_3.index t0_0 (0 : Fin 2) * 1024 ≤ (i 0).val ∧ (i 0).val < win0_3.index t0_0 (0 : Fin 2) * 1024 + 1024
    omega
  | ⟨1, _⟩ =>
    show win0_3.index t0_0 (1 : Fin 2) * 128 ≤ (i 1).val ∧ (i 1).val < win0_3.index t0_0 (1 : Fin 2) * 128 + 128
    omega

theorem final (m : (ℓ : Loc nD τ sig) → Buf (Elt Ideal) ℓ) (c : Dev nD) :
    (dats (F := Ideal) m 0 c).arrAt 3 cfg0.N
      = Cert.Spec.pooled (m ((c.tc : Thread nD τ).loc main_arg0)) (m ((c.tc : Thread nD τ).loc main_arg1)) :=
  (dats (F := Ideal) m 0 c).arrAt_eq_of_cover 3
    (Cert.Spec.pooled (V m c main_arg0) (V m c main_arg1)) (fun t _ => flushed_eq m c t) covered

end Cert.KernelIdeal.KValue

end
-- ==== Proof.RefTerm.lean ====
/-
  The reference's result as ONE term of its two argument arrays, operation by operation in the order the
  program applies them: the category index 0..999 (an iota), the take of the table's rows at it — the
  index wrapped if negative, the in-range mask, the row gather, the select against the fill value — and then
  the broadcast product with the weights summed over the category axis.
-/
import proofs.«176718_g3934190044074_cont_8to1_b_861_10_alg».proof.Proof.Gen.ReferenceIdeal

noncomputable section

namespace Cert.ReferenceIdeal.RefTerm

open Idealize.ShloMosaic Idealize.SL.Sem
open Cert.ReferenceIdeal Cert.ReferenceIdeal.Facts₀

variable {F : FTy → Type} [FloatOps F]

/-- The category index: 0, 1, …, 999. -/
def idx : IVec S1000 32 := iotaInDim S1000 32 0

/-- The index with a negative entry wrapped by 1000 (the take's first step). -/
def wrapped : IVec S1000 32 :=
  select (cmpi .slt idx (broadcastInDim S1000 ![] bcast_S_S1000 (constantI S_ 32 0#32)))
    (addi idx (broadcastInDim S1000 ![] bcast_S_S1000 (constantI S_ 32 1000#32))) idx

/-- The wrapped index as a column of start indices. -/
def starts : IVec S1000x1 32 := broadcastInDim S1000x1 ![0] bcast_S1000_S1000x1_0 wrapped

/-- Row by row: is the start index within 0..999? -/
def inRange : IVec S1000 1 :=
  Host.reduce IntOp.andi
    (andi (cmpi .sge starts (broadcastInDim S1000x1 ![] bcast_S_S1000x1 (constantI S_ 32 0#32)))
      (cmpi .sle starts (broadcastInDim S1000x1 ![0, 1] bcast_S1x1_S1000x1_0_1
        (broadcastInDim S1x1 ![1] bcast_S1_S1x1_1 (constantI S1 32 999#32)))))
    (constantI S_ 1 1#1) reducesTo_S1000x1_S1000_d1 h_S_

/-- The rows taken from the table: the gathered row where the index is in range, the fill value elsewhere. -/
def taken (t : FVec F S1000x128 .f32) : FVec F S1000x128 .f32 :=
  select (broadcastInDim S1000x128 ![0] bcast_S1000_S1000x128_0 inRange)
    (Host.gather gather_S1000x128_S1000x1_S1000x128_1_0_n_n_0_1_1128 t starts)
    (broadcastInDim S1000x128 ![] bcast_S_S1000x128 (constant S_ .f32 0x7FC00000#32))

/-- The reference's result: the taken rows and the weights broadcast to [1024, 1000, 128], multiplied, and
    summed over the category axis from zero. -/
def result (w : FVec F S1024x1000 .f32) (t : FVec F S1000x128 .f32) : FVec F S1024x128 .f32 :=
  Host.reduceAdd
    (mulf
      (broadcastInDim S1024x1000x128 ![0, 1, 2] bcast_S1x1000x128_S1024x1000x128_0_1_2
        (broadcastInDim S1x1000x128 ![1, 2] bcast_S1000x128_S1x1000x128_1_2 (taken t)))
      (broadcastInDim S1024x1000x128 ![0, 1, 2] bcast_S1024x1000x1_S1024x1000x128_0_1_2
        (broadcastInDim S1024x1000x1 ![0, 1] bcast_S1024x1000_S1024x1000x1_0_1 w)))
    (constant S_ .f32 0x00000000#32) reducesTo_S1024x1000x128_S1024x128_d1 h_S_

end Cert.ReferenceIdeal.RefTerm

end
-- ==== Proof.RefRun.lean ====
/-
  The reference's run: @main, with the take's and the where's bodies inlined at their calls, is a straight line
  of host operations, and every weakly fair execution of it ends with the result buffer at the term
  `RefTerm.result` of the two argument arrays, the arguments unchanged.
-/
import proofs.«176718_g3934190044074_cont_8to1_b_861_10_alg».proof.Proof.RefTerm
import Idealize.ShloMosaic.Lib.StableHlo.Run

noncomputable section

namespace Cert.ReferenceIdeal.RefRun

open Idealize.ShloMosaic Idealize.ShloMosaic.TcCoe Idealize.SL.Sem
open Cert.ReferenceIdeal Cert.ReferenceIdeal.Facts₀

variable {F : FTy → Type} [FloatOps F]

section

open Idealize.ShloMosaic.StableHlo

/-- @main's thirty-one operations in order, the two calls unfolded: the category index (an iota); the take's
    twenty-three over its own buffers — the zero and the thousand broadcast, the sign test, the shifted index, the
    where's one select between them, the index as a column, the two range tests against zero and 999 and their
    conjunction folded along the unit axis, the row gather, the mask and the fill value broadcast, the select —;
    then the two operands broadcast to rank three, their product, the zero, and the sum over the category axis. -/
abbrev ops : List (HloOp τ sig (Elt F)) :=
  [ nullary main_v0 (iotaInDim S1000 32 0),
    TRef.nullary main_call0.c (constantI S_ 32 0#32),
    TRef.unary main_call0.c main_call0.v0 (broadcastInDim S1000 ![] bcast_S_S1000),
    TRef.binary (.of main_v0) main_call0.v0 main_call0.v1 (cmpi .slt),
    TRef.nullary main_call0.c_0 (constantI S_ 32 1000#32),
    TRef.unary main_call0.c_0 main_call0.v2 (broadcastInDim S1000 ![] bcast_S_S1000),
    TRef.binary (.of main_v0) main_call0.v2 main_call0.v3 addi,
    TRef.ternary main_call0.v1 main_call0.v3 (.of main_v0) main_call0.call0.v0 select,
    TRef.unary main_call0.call0.v0 main_call0.v5 (broadcastInDim S1000x1 ![0] bcast_S1000_S1000x1_0),
    TRef.nullary main_call0.c_1 (constantI S1 32 999#32),
    TRef.nullary main_call0.c_2 (constantI S_ 32 0#32),
    TRef.unary main_call0.c_2 main_call0.v6 (broadcastInDim S1000x1 ![] bcast_S_S1000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1000x1 ![0, 1] bcast_S1x1_S1000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1000x1_S1000_d1 h_S_),
    TRef.binary (.of main_arg1) main_call0.v5 main_call0.v13 (fun x i => Host.gather gather_S1000x128_S1000x1_S1000x128_1_0_n_n_0_1_1128 x i),
    TRef.unary main_call0.v12 main_call0.v14 (broadcastInDim S1000x128 ![0] bcast_S1000_S1000x128_0),
    TRef.nullary main_call0.cst (constant S_ .f32 0x7FC00000#32),
    TRef.unary main_call0.cst main_call0.v15 (broadcastInDim S1000x128 ![] bcast_S_S1000x128),
    TRef.ternary main_call0.v14 main_call0.v13 main_call0.v15 main_call0.v16 select,
    unary main_v1 main_v2 (broadcastInDim S1x1000x128 ![1, 2] bcast_S1000x128_S1x1000x128_1_2 : (⟨S1000x128, .f32⟩ : BufTy).Contents (Elt F) → (⟨S1x1000x128, .f32⟩ : BufTy).Contents (Elt F)),
    unary main_arg0 main_v3 (broadcastInDim S1024x1000x1 ![0, 1] bcast_S1024x1000_S1024x1000x1_0_1 : (⟨S1024x1000, .f32⟩ : BufTy).Contents (Elt F) → (⟨S1024x1000x1, .f32⟩ : BufTy).Contents (Elt F)),
    unary main_v2 main_v4 (broadcastInDim S1024x1000x128 ![0, 1, 2] bcast_S1x1000x128_S1024x1000x128_0_1_2 : (⟨S1x1000x128, .f32⟩ : BufTy).Contents (Elt F) → (⟨S1024x1000x128, .f32⟩ : BufTy).Contents (Elt F)),
    unary main_v3 main_v5 (broadcastInDim S1024x1000x128 ![0, 1, 2] bcast_S1024x1000x1_S1024x1000x128_0_1_2 : (⟨S1024x1000x1, .f32⟩ : BufTy).Contents (Elt F) → (⟨S1024x1000x128, .f32⟩ : BufTy).Contents (Elt F)),
    binary main_v4 main_v5 main_v6 (mulf : (⟨S1024x1000x128, .f32⟩ : BufTy).Contents (Elt F) → (⟨S1024x1000x128, .f32⟩ : BufTy).Contents (Elt F) → (⟨S1024x1000x128, .f32⟩ : BufTy).Contents (Elt F)),
    nullary main_cst (constant S_ .f32 0x00000000#32),
    binary main_v6 main_cst main_v7 ((fun x v => Host.reduceAdd x v reducesTo_S1024x1000x128_S1024x128_d1 h_S_) : (⟨S1024x1000x128, .f32⟩ : BufTy).Contents (Elt F) → (⟨S_, .f32⟩ : BufTy).Contents (Elt F) → (⟨S1024x128, .f32⟩ : BufTy).Contents (Elt F)) ]

-- thirty-one binds re-associated: the rewrite under the chain recurses once per statement
set_option maxRecDepth 1024 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., unary_bufs_sub .., unary_bufs_sub .., binary_bufs_sub .., nullary_bufs_sub ..,
    binary_bufs_sub ..⟩

/-- From any memory with zero counters every weakly fair execution of @main terminates, and every final state has
    each buffer at the operations' fold over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.gather iotaInDim in
set_option maxRecDepth 8192 in
/-- The fold read at the result buffer is `RefTerm.result` of the two arguments' contents. One pass rewrites each
    operation's result at its own buffer to its function's value and at any other buffer to what was there (the
    buffers told apart as references), each shared intermediate visited once; what is left is the composed term with
    the typed references' transports around each value, and those are the identity at these literal references, so
    the two sides agree by computation. The two folds over an operand's elements, the gather and the iota are kept
    closed meanwhile: the equation never looks inside them. -/
theorem result_eq (V : Valuation τ sig (Elt F)) :
    after ops V (main_v7 : DevRef τ sig)
      = RefTerm.result (F := F) (V (main_arg0 : DevRef τ sig)) (V (main_arg1 : DevRef τ sig)) := by
  after_results_simp
  rfl

/-- No operation writes the first argument's buffer. -/
theorem arg0_eq (V : Valuation τ sig (Elt F)) :
    after ops V (main_arg0 : DevRef τ sig) = V (main_arg0 : DevRef τ sig) := by
  simp only [after_cons, after_nil]
  rfl

/-- No operation writes the second argument's buffer. -/
theorem arg1_eq (V : Valuation τ sig (Elt F)) :
    after ops V (main_arg1 : DevRef τ sig) = V (main_arg1 : DevRef τ sig) := by
  simp only [after_cons, after_nil]
  rfl

end

/-- Every weakly fair execution of @main from any memory with zero counters terminates with the result buffer at
    `RefTerm.result` of the two arguments' launch contents and the arguments unchanged: the launch contents of a
    device at a buffer are the memory at that buffer's location. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v7)
        = RefTerm.result (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v7).trans (result_eq (StableHlo.launchContents m c)),
      (h c main_arg0).trans (arg0_eq (StableHlo.launchContents m c)),
      (h c main_arg1).trans (arg1_eq (StableHlo.launchContents m c))⟩)
    (run_main m ρ)

end Cert.ReferenceIdeal.RefRun

end
-- ==== Proof.LibRowGather2.lean ====
/-
  A general lemma: StableHLO's gather of ROWS of a table at a COLUMN of start indices, read at an index.

  What jnp's table[idx] lowers to for a rank-2 table [N, C] and an integer vector idx of length R: a gather whose start
  indices are the vector laid out as an [R, 1] column (the index vector on the last axis, of length one), the table's
  axis 0 collapsed and start-indexed, its axis 1 the result's one offset axis, slices of one whole row. The result
  element (r, c) is the table's element (row, c), where row is the start index idx[r, 0] read as a signed integer and
  clamped into [0, N - 1], as StableHLO's gather clamps every start index.
-/
import Idealize.ShloMosaic.Lib.ValueIdx

noncomputable section

namespace Cert.RowGather2

open Idealize.ShloMosaic Idealize.ShloMosaic.ValueIdx

variable {α : Type}

/-- Those dimension numbers, for a table [N, C], start indices [R, 1] and a result [R, C]; the conditions wf are
    decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N C R w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (c : Fin C)

/-- The table's column axis is not start-indexed … -/
theorem one_not_mem_startIndexMap : ¬ (1 : Fin 2) ∈ (rowDims N C R wf).startIndexMap := fun h =>
  absurd (congrArg Fin.val (List.mem_singleton.mp h)) Nat.one_ne_zero

/-- … and is kept (neither collapsed nor batching). -/
theorem one_mem_sKept : (1 : Fin 2) ∈ (rowDims N C R wf).sKept :=
  (GatherDims.mem_sKept _ _).mpr ⟨fun h => absurd (congrArg Fin.val (List.mem_singleton.mp h)) Nat.one_ne_zero, List.not_mem_nil⟩

/-- On the ROW axis the operand index is the clamped start: the axis is collapsed (no offset coordinate) and its start
    is the index column's word for row r. -/
theorem operandIdx_row :
    ((rowDims N C R wf).operandIdx (ix2 r c) idx (0 : Fin 2)).val = min (idx (ix2 r (0 : Fin 1))).toInt.toNat (N - 1) := by
  show (rowDims N C R wf).start (ix2 r c) idx 0 + (rowDims N C R wf).batchCoord (ix2 r c) 0
      + (rowDims N C R wf).offCoord (ix2 r c) 0 = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (0 : Fin 2) ∈ (rowDims N C R wf).startIndexMap from List.mem_singleton.mpr rfl)]
  have hsi : (rowDims N C R wf).siIdx (ix2 r c) ⟨List.idxOf (0 : Fin 2) (rowDims N C R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the COLUMN axis it is the result's offset coordinate: not start-indexed (start 0), read by the result's axis 1. -/
theorem operandIdx_col :
    ((rowDims N C R wf).operandIdx (ix2 r c) idx (1 : Fin 2)).val = c.val := by
  show (rowDims N C R wf).start (ix2 r c) idx 1 + (rowDims N C R wf).batchCoord (ix2 r c) 1
      + (rowDims N C R wf).offCoord (ix2 r c) 1 = _
  rw [GatherDims.batchCoord_eq_zero _ _ _ List.not_mem_nil, Nat.add_zero]
  unfold GatherDims.start
  rw [dif_neg (one_not_mem_startIndexMap wf), Nat.zero_add]
  unfold GatherDims.offCoord
  rw [dif_pos (one_mem_sKept wf)]
  rfl

end

/-- THE GATHER READ AT (r, c): the table at the clamped start row and column c. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N C R wf) x idx (ix2 r c)
      = x (ix2 ⟨min (idx (ix2 r (0 : Fin 1))).toInt.toNat (N - 1), by omega⟩ c) := by
  unfold Host.gather
  refine congrArg x (funext fun a => Fin.ext ?_)
  match a with
  | ⟨0, _⟩ => exact operandIdx_row wf idx r c
  | ⟨1, _⟩ => exact operandIdx_col wf idx r c

end Cert.RowGather2

end
-- ==== Proof.RefValue.lean ====
/-
  The reference's result read index by index at the extended reals: the category index is 0..999, so no entry
  is wrapped, every start index is in range, the gather returns the table's own rows and the select keeps them;
  the broadcast product summed over the category axis from zero is then the pooled embedding.
-/
import proofs.«176718_g3934190044074_cont_8to1_b_861_10_alg».proof.Proof.RefTerm
import proofs.«176718_g3934190044074_cont_8to1_b_861_10_alg».proof.Proof.Spec
import proofs.«176718_g3934190044074_cont_8to1_b_861_10_alg».proof.Proof.LibRowGather2
import Idealize.ShloMosaic.PureOps.Ideal.Laws
import Idealize.ShloMosaic.Lib.IdealHost
import Idealize.ShloMosaic.Lib.Pipeline.Value
import Idealize.ShloMosaic.Lib.StableHlo.Predicate

noncomputable section

namespace Cert.ReferenceIdeal.RefValue

open Idealize.ShloMosaic Idealize.ShloMosaic.ValueIdx Idealize.SL.Sem
open Cert.ReferenceIdeal Cert.ReferenceIdeal.Facts₀
open Idealize.ShloMosaic.StableHlo.Predicate (toInt_ofNat_small sle_iff_toNat slt_iff_toNat sge_iff_toNat)

/-! ## Words: a category number 0..999 as a 32-bit word -/

/-- A category number as a 32-bit word keeps its value: it is far below 2³². -/
theorem toNat_word (v : Fin 1000) : (BitVec.ofNat 32 v.val).toNat = v.val := by
  rw [BitVec.toNat_ofNat]; exact Nat.mod_eq_of_lt (by have := v.isLt; omega)

/-- … and, read signed, it is below 2³¹. -/
theorem word_small (v : Fin 1000) : (BitVec.ofNat 32 v.val).toNat < 2 ^ 31 := by
  rw [toNat_word]; have := v.isLt; omega

/-- The word is not negative: the signed compare with zero says no. -/
theorem word_not_neg (v : Fin 1000) : IntOp.cmpi .slt (BitVec.ofNat 32 v.val) 0#32 = 0#1 := by
  refine eq_zero_of_ne_one fun h => ?_
  have h' := (slt_iff_toNat (word_small v) (by decide)).1 h
  exact absurd h' (by show ¬ _ < 0; omega)

/-- The word is at least zero … -/
theorem word_ge_zero (v : Fin 1000) : IntOp.cmpi .sge (BitVec.ofNat 32 v.val) 0#32 = 1#1 :=
  (sge_iff_toNat (word_small v) (by decide)).2 (by show 0 ≤ _; omega)

/-- … and at most 999. -/
theorem word_le_last (v : Fin 1000) : IntOp.cmpi .sle (BitVec.ofNat 32 v.val) 999#32 = 1#1 :=
  (sle_iff_toNat (word_small v) (by decide)).2 (by rw [toNat_word]; show _ ≤ 999; have := v.isLt; omega)

/-! ## The index chain of the take -/

/-- The category index at v is the word v. -/
theorem idx_apply (v : Fin 1000) : RefTerm.idx (ix1 v) = BitVec.ofNat 32 v.val := rfl

/-- No entry is wrapped: the index is never negative. -/
theorem wrapped_apply (v : Fin 1000) : RefTerm.wrapped (ix1 v) = BitVec.ofNat 32 v.val := by
  show Scalar.select (IntOp.cmpi .slt (BitVec.ofNat 32 v.val) 0#32) _ (BitVec.ofNat 32 v.val) = _
  rw [word_not_neg, select_zero]

/-- The column of start indices at row v is the word v. -/
theorem starts_apply (v : Fin 1000) (q : Fin 1) : RefTerm.starts (ix2 v q) = BitVec.ofNat 32 v.val := by
  refine (broadcastInDim_apply (s := S1000) (t := S1000x1) ![0] bcast_S1000_S1000x1_0 RefTerm.wrapped (ix2 v q) (ix1 v) ?_).trans
    (wrapped_apply v)
  intro a
  match a with
  | ⟨0, _⟩ => rfl

/-- A left fold by "and" from 1 over words that are all 1 is 1. -/
theorem foldl_andi_one {ι : Type} (l : List ι) (g : ι → BitVec 1) (hg : ∀ n, g n = 1#1) :
    l.foldl (fun r n => IntOp.andi r (g n)) 1#1 = 1#1 := by
  induction l with
  | nil => rfl
  | cons a l ih =>
    rw [List.foldl_cons, hg a, show IntOp.andi (1#1 : BitVec 1) 1#1 = 1#1 from by decide]
    exact ih

/-- A reduce by "and" from 1 of an array whose every word is 1 is 1 at every result index. -/
theorem reduce_andi_one {s t u : Shape} {axes : List (Fin s.rank)} (x : s.Idx → BitVec 1) (init : u.Idx → BitVec 1)
    (h : s.ReducesTo axes t) (hu : 0 < u.numel) (hx : ∀ i, x i = 1#1) (hinit : ∀ k, init k = 1#1) (j : t.Idx) :
    Host.reduce IntOp.andi x init h hu j = 1#1 := by
  unfold Host.reduce
  rw [hinit]
  exact foldl_andi_one _ (fun n => x (s.rowMajor.symm n)) (fun n => hx _)

/-- Every start index is within 0..999. -/
theorem inRange_apply (v : Fin 1000) : RefTerm.inRange (ix1 v) = 1#1 := by
  refine reduce_andi_one _ _ _ _ (fun i => ?_) (fun _ => rfl) _
  obtain ⟨a, q, rfl⟩ : ∃ (a : Fin 1000) (q : Fin 1), i = ix2 a q := ⟨i 0, i 1, eq_ix2 i⟩
  show IntOp.andi (IntOp.cmpi .sge (RefTerm.starts (ix2 a q)) 0#32) (IntOp.cmpi .sle (RefTerm.starts (ix2 a q)) 999#32) = 1#1
  rw [starts_apply]
  exact IntOp.andi_eq_one.2 ⟨word_ge_zero a, word_le_last a⟩

/-! ## The gather and the select -/

/-- The program's gather record is the row gather's dimension numbers at these sizes. -/
theorem gatherDims_eq :
    gather_S1000x128_S1000x1_S1000x128_1_0_n_n_0_1_1128
      = Cert.RowGather2.rowDims 1000 128 1000 gather_S1000x128_S1000x1_S1000x128_1_0_n_n_0_1_1128_wf := rfl

/-- The gather at (v, d) is the table's own entry (v, d): the start index v is its own clamp. -/
theorem gather_apply (t : FVec Ideal S1000x128 .f32) (v : Fin 1000) (d : Fin 128) :
    Host.gather gather_S1000x128_S1000x1_S1000x128_1_0_n_n_0_1_1128 t RefTerm.starts (ix2 v d) = t (ix2 v d) := by
  rw [gatherDims_eq]
  refine (Cert.RowGather2.gather_rows_apply (by decide) _ t RefTerm.starts v d).trans ?_
  refine congrArg (fun r : Fin 1000 => t (ix2 r d)) (Fin.ext ?_)
  show min (RefTerm.starts (ix2 v (0 : Fin 1))).toInt.toNat (1000 - 1) = v.val
  rw [starts_apply, toInt_ofNat_small _ (by have := v.isLt; omega), Int.toNat_natCast]
  have := v.isLt; omega

/-- The rows taken are the table's rows: the fill value is never read. -/
theorem taken_apply (t : FVec Ideal S1000x128 .f32) (v : Fin 1000) (d : Fin 128) :
    RefTerm.taken (F := Ideal) t (ix2 v d) = t (ix2 v d) := by
  show Scalar.select (broadcastInDim S1000x128 ![0] bcast_S1000_S1000x128_0 RefTerm.inRange (ix2 v d))
    (Host.gather gather_S1000x128_S1000x1_S1000x128_1_0_n_n_0_1_1128 t RefTerm.starts (ix2 v d)) _ = _
  rw [broadcastInDim_apply (s := S1000) (t := S1000x128) ![0] bcast_S1000_S1000x128_0 RefTerm.inRange (ix2 v d) (ix1 v)
    (fun a => match a with | ⟨0, _⟩ => rfl)]
  rw [inRange_apply, select_one]
  exact gather_apply t v d

/-! ## The two double broadcasts -/

variable {α : Type}

/-- [1000,128] → [1,1000,128] → [1024,1000,128] read at (b, v, d): the entry (v, d). -/
theorem bcast_table_apply (x : S1000x128.Idx → α) (b : Fin 1024) (v : Fin 1000) (d : Fin 128) :
    broadcastInDim S1024x1000x128 ![0, 1, 2] bcast_S1x1000x128_S1024x1000x128_0_1_2
      (broadcastInDim S1x1000x128 ![1, 2] bcast_S1000x128_S1x1000x128_1_2 x) (ix3 b v d) = x (ix2 v d) := by
  refine (broadcastInDim_apply (s := S1x1000x128) (t := S1024x1000x128) ![0, 1, 2] _ _ (ix3 b v d) (ix3 (0 : Fin 1) v d) ?_).trans ?_
  · intro a
    match a with
    | ⟨0, _⟩ => rfl
    | ⟨1, _⟩ => rfl
    | ⟨2, _⟩ => rfl
  · refine broadcastInDim_apply (s := S1000x128) (t := S1x1000x128) ![1, 2] _ x (ix3 (0 : Fin 1) v d) (ix2 v d) ?_
    intro a
    match a with
    | ⟨0, _⟩ => rfl
    | ⟨1, _⟩ => rfl

/-- [1024,1000] → [1024,1000,1] → [1024,1000,128] read at (b, v, d): the entry (b, v). -/
theorem bcast_weights_apply (x : S1024x1000.Idx → α) (b : Fin 1024) (v : Fin 1000) (d : Fin 128) :
    broadcastInDim S1024x1000x128 ![0, 1, 2] bcast_S1024x1000x1_S1024x1000x128_0_1_2
      (broadcastInDim S1024x1000x1 ![0, 1] bcast_S1024x1000_S1024x1000x1_0_1 x) (ix3 b v d) = x (ix2 b v) := by
  refine (broadcastInDim_apply (s := S1024x1000x1) (t := S1024x1000x128) ![0, 1, 2] _ _ (ix3 b v d) (ix3 b v (0 : Fin 1)) ?_).trans ?_
  · intro a
    match a with
    | ⟨0, _⟩ => rfl
    | ⟨1, _⟩ => rfl
    | ⟨2, _⟩ => rfl
  · refine broadcastInDim_apply (s := S1024x1000) (t := S1024x1000x1) ![0, 1] _ x (ix3 b v (0 : Fin 1)) (ix2 b v) ?_
    intro a
    match a with
    | ⟨0, _⟩ => rfl
    | ⟨1, _⟩ => rfl

/-! ## The sum over the category axis -/

/-- The reduction's shape fact in the form that names the inserted index. -/
theorem reduces_mid : Shape.Reduces S1024x1000x128 [1] S1024x128 := by decide

/-- The result index (b, d) with the category v inserted on axis 1 is (b, v, d). -/
theorem lift_mid (b : Fin 1024) (v : Fin 1000) (d : Fin 128) : reduces_mid.lift (ix2 b d) v = ix3 b v d := by
  funext a
  apply Fin.ext
  match a with
  | ⟨0, _⟩ => rfl
  | ⟨1, _⟩ => rfl
  | ⟨2, _⟩ => rfl

/-- Entry (b, d) of the reference's result: the pooled sum. -/
theorem result_apply (w : FVec Ideal S1024x1000 .f32) (t : FVec Ideal S1000x128 .f32) (b : Fin 1024) (d : Fin 128) :
    RefTerm.result (F := Ideal) w t (ix2 b d) = ∑ v : Fin 1000, w (ix2 b v) * t (ix2 v d) := by
  unfold RefTerm.result
  rw [hostReduceAdd_apply, Ideal.hostReduceAdd_single reducesTo_S1024x1000x128_S1024x128_d1 reduces_mid, constant_apply,
    Ideal.ofBits_zero_f32, zero_add]
  refine Finset.sum_congr rfl fun (v : Fin 1000) _ => ?_
  rw [lift_mid, mulf_apply, bcast_table_apply, bcast_weights_apply, taken_apply, mul_comm]

theorem result_eq (w : FVec Ideal S1024x1000 .f32) (t : FVec Ideal S1000x128 .f32) :
    RefTerm.result (F := Ideal) w t = Cert.Spec.pooled w t := by
  funext i
  obtain ⟨b, d, rfl⟩ : ∃ (b : Fin 1024) (d : Fin 128), i = ix2 b d := ⟨i 0, i 1, eq_ix2 i⟩
  rw [result_apply]
  rfl

end Cert.ReferenceIdeal.RefValue

end
-- ==== Proof.lean ====
/-
  The certificate of the pooled weighted embedding: a kernel that computes out = weights · table as two half-row
  matrix products (the weights' array read through two windows, rows 0..511 and 512..1023) against a reference that
  takes every row of the table in order (index 0..999), multiplies the taken rows with the weights broadcast to
  [1024, 1000, 128] and sums over the category axis. At the extended reals both are
  out(b, d) = Σ_v weights(b, v) · table(v, d): the take at the index 0..999 is the table itself (no index is
  negative, every one is in range, so neither the wrap nor the fill value is ever used), a matrix product into the
  zero accumulator is the plain sum of products, and the reference's products table · weights are the kernel's
  weights · table by commutativity. No finiteness of the inputs is used.
  The three programs run to the end with their argument arrays unchanged: the kernel's two by its one-point
  pipeline (the weights' array lent half to each of its two windows), the reference's by its straight line of host
  operations. The idealization rewrote nothing, so the kernel's idealization is its own text.
-/
import proofs.«176718_g3934190044074_cont_8to1_b_861_10_alg».proof.Defs
import proofs.«176718_g3934190044074_cont_8to1_b_861_10_alg».proof.Proof.Gen.Kernel
import proofs.«176718_g3934190044074_cont_8to1_b_861_10_alg».proof.Proof.Gen.KernelIdeal
import proofs.«176718_g3934190044074_cont_8to1_b_861_10_alg».proof.Proof.Gen.ReferenceIdeal
import proofs.«176718_g3934190044074_cont_8to1_b_861_10_alg».proof.Proof.Gen.Pre_finite_inputs
import proofs.«176718_g3934190044074_cont_8to1_b_861_10_alg».proof.Proof.KFrame
import proofs.«176718_g3934190044074_cont_8to1_b_861_10_alg».proof.Proof.KFrameBits
import proofs.«176718_g3934190044074_cont_8to1_b_861_10_alg».proof.Proof.KValue
import proofs.«176718_g3934190044074_cont_8to1_b_861_10_alg».proof.Proof.RefRun
import proofs.«176718_g3934190044074_cont_8to1_b_861_10_alg».proof.Proof.RefValue

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories that agree on the two arguments both programs end with the pooled embedding of those arguments
    in their result arrays. -/
theorem algebraic : Cert.algebraic_KernelIdeal_ReferenceIdeal := by
  intro m ρ m' ρ' _ hagree
  refine ⟨fun c => Cert.Spec.pooled (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KValue.final m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.RefRun.run (F := Ideal) m' ρ')
    rw [(hagree c).1, (hagree c).2]
    exact Cert.ReferenceIdeal.RefValue.result_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
